-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S209715 : Shape := ⟨1, ![209715]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S209715 : S_.BroadcastsInDim S209715 (![] : Fin 0 → Fin S209715.rank)
  reducesTo_S209715_S_d0 : S209715.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg3 : IVec S209715 32) (main_v13 : IVec S_ 1) (main_v15 : IVec S209715 1) (main_c_5 : IVec S_ 1) : IVec S_ 1 :=
  let main_v16 : IVec S_ 1 := (fun x v => Host.reduce IntOp.andi x v reducesTo_S209715_S_d0 h_S_) main_v15 main_c_5
  let main_v17 : IVec S_ 1 := andi main_v13 main_v16
  let main_c_6 : IVec S_ 32 := constantI S_ 32 2048#32
  let main_v18 : IVec S209715 32 := broadcastInDim S209715 ![] bcast_S_S209715 main_c_6
  let main_v19 : IVec S209715 1 := cmpi .slt main_arg3 main_v18
  let main_c_7 : IVec S_ 1 := constantI S_ 1 1#1
  let main_v20 : IVec S_ 1 := (fun x v => Host.reduce IntOp.andi x v reducesTo_S209715_S_d0 h_S_) main_v19 main_c_7
  let main_v21 : IVec S_ 1 := andi main_v17 main_v20
  main_v21

def fn {F : FTy → Type} [FloatOps F] (main_arg0 : FVec F S512x2048 .f32) (main_arg1 : FVec F S209715 .f32) (main_arg2 : FVec F S2048 .f32) (main_arg3 : IVec S209715 32) (main_arg4 : IVec S209715 32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S209715 .f32 := Host.absf main_arg1
  let main_cst_0 : FVec F S_ .f32 := constant S_ .f32 0x7F800000#32
  let main_v5 : FVec F S209715 .f32 := broadcastInDim S209715 ![] bcast_S_S209715 main_cst_0
  let main_v6 : IVec S209715 1 := cmpf .olt main_v4 main_v5
  let main_c_1 : IVec S_ 1 := constantI S_ 1 1#1
  let main_v7 : IVec S_ 1 := (fun x v => Host.reduce IntOp.andi x v reducesTo_S209715_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_c_4 : IVec S_ 32 := constantI S_ 32 4294965248#32
  let main_v14 : IVec S209715 32 := broadcastInDim S209715 ![] bcast_S_S209715 main_c_4
  let main_v15 : IVec S209715 1 := cmpi .sge main_arg3 main_v14
  let main_c_5 : IVec S_ 1 := constantI S_ 1 1#1
  fn_part1 (F := F) main_arg3 main_v13 main_v15 main_c_5
-- ==== Kernel.lean ====
abbrev S512x2048 : Shape := ⟨2, ![512, 2048]⟩
abbrev S209715 : Shape := ⟨1, ![209715]⟩
abbrev S2048 : Shape := ⟨1, ![2048]⟩
abbrev S_ : Shape := ⟨0, ![]⟩
abbrev S2048x2048 : Shape := ⟨2, ![2048, 2048]⟩
abbrev S209715x1 : Shape := ⟨2, ![209715, 1]⟩
abbrev S209715x2 : Shape := ⟨2, ![209715, 2]⟩
abbrev S1x2048 : Shape := ⟨2, ![1, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 27
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S209715, .f32⟩
  | .hbm, ⟨2, _⟩ => ⟨S2048, .f32⟩
  | .hbm, ⟨3, _⟩ => ⟨S209715, .i32⟩
  | .hbm, ⟨4, _⟩ => ⟨S209715, .i32⟩
  | .hbm, ⟨5, _⟩ => ⟨S_, .f32⟩
  | .hbm, ⟨6, _⟩ => ⟨S2048x2048, .f32⟩
  | .hbm, ⟨7, _⟩ => ⟨S_, .i32⟩
  | .hbm, ⟨8, _⟩ => ⟨S209715, .i32⟩
  | .hbm, ⟨9, _⟩ => ⟨S209715, .i1⟩
  | .hbm, ⟨10, _⟩ => ⟨S_, .i32⟩
  | .hbm, ⟨11, _⟩ => ⟨S209715, .i32⟩
  | .hbm, ⟨12, _⟩ => ⟨S209715, .i32⟩
  | .hbm, ⟨13, _⟩ => ⟨S209715, .i32⟩
  | .hbm, ⟨14, _⟩ => ⟨S_, .i32⟩
  | .hbm, ⟨15, _⟩ => ⟨S209715, .i32⟩
  | .hbm, ⟨16, _⟩ => ⟨S209715, .i1⟩
  | .hbm, ⟨17, _⟩ => ⟨S_, .i32⟩
  | .hbm, ⟨18, _⟩ => ⟨S209715, .i32⟩
  | .hbm, ⟨19, _⟩ => ⟨S209715, .i32⟩
  | .hbm, ⟨20, _⟩ => ⟨S209715, .i32⟩
  | .hbm, ⟨21, _⟩ => ⟨S209715x1, .i32⟩
  | .hbm, ⟨22, _⟩ => ⟨S209715x1, .i32⟩
  | .hbm, ⟨23, _⟩ => ⟨S209715x2, .i32⟩
  | .hbm, ⟨24, _⟩ => ⟨S2048x2048, .f32⟩
  | .hbm, ⟨25, _⟩ => ⟨S1x2048, .f32⟩
  | .hbm, ⟨26, _⟩ => ⟨S512x2048, .f32⟩
  | .local _ .vmem, ⟨0, _⟩ => ⟨S512x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048x2048 : S_.BroadcastsInDim S2048x2048 (![] : Fin 0 → Fin S2048x2048.rank)
  bcast_S_S209715 : S_.BroadcastsInDim S209715 (![] : Fin 0 → Fin S209715.rank)
  bcast_S209715_S209715x1_0 : S209715.BroadcastsInDim S209715x1 (![0] : Fin 1 → Fin S209715x1.rank)
  concatenates_S209715x1_S209715x1_S209715x2_d1 : Shape.Concatenates [S209715x1, S209715x1] S209715x2 1
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  scatter_S2048x2048_S209715x2_S209715_n_01_01_1_wf : ScatterDims.WF S2048x2048 S209715x2 S209715 [] [0, 1] [0, 1] 1
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x2048.size a
  hwx0_3 : ∀ i : grid0.Coords, EltTy.bits .f32 = 32 ∨ (Rect.block (s := S512x2048) S512x512.size (cc0_transform_3 i) (hinb0_3 i)).WholeWords (EltTy.packing .f32)

variable [Facts₀]

def scatter_S2048x2048_S209715x2_S209715_n_01_01_1 : ScatterDims S2048x2048 S209715x2 S209715 where
  updateWindowDims := []
  insertedWindowDims := [0, 1]
  scatterDimsToOperandDims := [0, 1]
  indexVectorDim := 1
  wf := scatter_S2048x2048_S209715x2_S209715_n_01_01_1_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x2048 : Shape := ⟨2, ![512, 2048]⟩
abbrev S209715 : Shape := ⟨1, ![209715]⟩
abbrev S2048 : Shape := ⟨1, ![2048]⟩
abbrev S_ : Shape := ⟨0, ![]⟩
abbrev S209715x1 : Shape := ⟨2, ![209715, 1]⟩
abbrev S512x209715 : Shape := ⟨2, ![512, 209715]⟩
abbrev S1x209715 : Shape := ⟨2, ![1, 209715]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S209715, .f32⟩
  | .hbm, ⟨2, _⟩ => ⟨S2048, .f32⟩
  | .hbm, ⟨3, _⟩ => ⟨S209715, .i32⟩
  | .hbm, ⟨4, _⟩ => ⟨S209715, .i32⟩
  | .hbm, ⟨5, _⟩ => ⟨S_, .i32⟩
  | .hbm, ⟨6, _⟩ => ⟨S209715, .i32⟩
  | .hbm, ⟨7, _⟩ => ⟨S209715, .i1⟩
  | .hbm, ⟨8, _⟩ => ⟨S_, .i32⟩
  | .hbm, ⟨9, _⟩ => ⟨S209715, .i32⟩
  | .hbm, ⟨10, _⟩ => ⟨S209715, .i32⟩
  | .hbm, ⟨11, _⟩ => ⟨S209715, .i32⟩
  | .hbm, ⟨12, _⟩ => ⟨S209715x1, .i32⟩
  | .hbm, ⟨13, _⟩ => ⟨S512x209715, .f32⟩
  | .hbm, ⟨14, _⟩ => ⟨S1x209715, .f32⟩
  | .hbm, ⟨15, _⟩ => ⟨S512x209715, .f32⟩
  | .hbm, ⟨16, _⟩ => ⟨S512x209715, .f32⟩
  | .hbm, ⟨17, _⟩ => ⟨S_, .f32⟩
  | .hbm, ⟨18, _⟩ => ⟨S512x2048, .f32⟩
  | .hbm, ⟨19, _⟩ => ⟨S_, .i32⟩
  | .hbm, ⟨20, _⟩ => ⟨S209715, .i32⟩
  | .hbm, ⟨21, _⟩ => ⟨S209715, .i1⟩
  | .hbm, ⟨22, _⟩ => ⟨S_, .i32⟩
  | .hbm, ⟨23, _⟩ => ⟨S209715, .i32⟩
  | .hbm, ⟨24, _⟩ => ⟨S209715, .i32⟩
  | .hbm, ⟨25, _⟩ => ⟨S209715, .i32⟩
  | .hbm, ⟨26, _⟩ => ⟨S209715x1, .i32⟩
  | .hbm, ⟨27, _⟩ => ⟨S512x2048, .f32⟩
  | .hbm, ⟨28, _⟩ => ⟨S1x2048, .f32⟩
  | .hbm, ⟨29, _⟩ => ⟨S512x2048, .f32⟩
  | .hbm, ⟨30, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S209715 : S_.BroadcastsInDim S209715 (![] : Fin 0 → Fin S209715.rank)
  bcast_S209715_S209715x1_0 : S209715.BroadcastsInDim S209715x1 (![0] : Fin 1 → Fin S209715x1.rank)
  bcast_S209715_S1x209715_1 : S209715.BroadcastsInDim S1x209715 (![1] : Fin 1 → Fin S1x209715.rank)
  bcast_S1x209715_S512x209715_0_1 : S1x209715.BroadcastsInDim S512x209715 (![0, 1] : Fin 2 → Fin S512x209715.rank)
  bcast_S_S512x2048 : S_.BroadcastsInDim S512x2048 (![] : Fin 0 → Fin S512x2048.rank)
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  gather_S512x2048_S209715x1_S512x209715_0_1_n_n_1_1_5121_wf : GatherDims.WF S512x2048 S209715x1 S512x209715 [0] [1] [] [1] [] 1 ![512, 1]
  scatter_S512x2048_S209715x1_S512x209715_0_1_1_1_wf : ScatterDims.WF S512x2048 S209715x1 S512x209715 [0] [1] [1] 1

variable [Facts₀]

def gather_S512x2048_S209715x1_S512x209715_0_1_n_n_1_1_5121 : GatherDims S512x2048 S209715x1 S512x209715 where
  offsetDims := [0]
  collapsedSliceDims := [1]
  operandBatchingDims := []
  startIndicesBatchingDims := []
  startIndexMap := [1]
  indexVectorDim := 1
  sliceSizes := ![512, 1]
  wf := gather_S512x2048_S209715x1_S512x209715_0_1_n_n_1_1_5121_wf
def scatter_S512x2048_S209715x1_S512x209715_0_1_1_1 : ScatterDims S512x2048 S209715x1 S512x209715 where
  updateWindowDims := [0]
  insertedWindowDims := [1]
  scatterDimsToOperandDims := [1]
  indexVectorDim := 1
  wf := scatter_S512x2048_S209715x1_S512x209715_0_1_1_1_wf

class Facts : Prop extends Facts₀ where

variable [Facts]
-- ==== Proof.Wrap.lean ====
/-
  The wrap of a possibly negative index into an axis of 2048: v < 0 ? v + 2048 : v on 32-bit words read signed.
  For -2048 ≤ v < 2048 the wrapped word is in [0, 2048); and what the two signed comparisons of the domain condition say.
-/
import Idealize.ShloMosaic.PureOps

namespace Cert.Sparse

open Idealize.ShloMosaic

/-- The wrapped index, spelt with the scalar operations the programs apply element by element. -/
def wrap (v : BitVec 32) : BitVec 32 := Scalar.select (IntOp.cmpi .slt v 0#32) (IntOp.addi v 2048#32) v

theorem wrap_range (v : BitVec 32) (hlo : -2048 ≤ v.toInt) (hhi : v.toInt < 2048) :
    0 ≤ (wrap v).toInt ∧ (wrap v).toInt < 2048 := by
  unfold wrap Scalar.select IntOp.cmpi IntOp.addi
  by_cases h : v.slt 0#32 = true
  · -- a negative word: adding 2048 does not leave the signed range
    have h0 : v.toInt < 0 := by
      have h' := BitVec.slt_iff_toInt_lt.mp h
      simpa using h'
    have hadd : (v + 2048#32).toInt = v.toInt + 2048 := by
      rw [BitVec.toInt_add]
      have h2 : (2048#32 : BitVec 32).toInt = 2048 := by decide
      rw [h2]
      apply Int.bmod_eq_of_le <;> omega
    simp only [h, BitVec.ofBool_true, if_true]
    rw [hadd]; omega
  · -- a non-negative word is kept
    have h0 : 0 ≤ v.toInt := by
      have h' : ¬ v.toInt < (0#32 : BitVec 32).toInt := fun hh => h (BitVec.slt_iff_toInt_lt.mpr hh)
      simpa using h'
    have hf : v.slt 0#32 = false := by simpa using h
    simp only [hf, BitVec.ofBool_false]
    have hne : ¬ ((0 : BitVec 1) = 1) := by decide
    rw [if_neg hne]
    omega

theorem sge_neg2048 (v : BitVec 32) (h : IntOp.cmpi .sge v 4294965248#32 = 1#1) : -2048 ≤ v.toInt := by
  simp only [IntOp.cmpi] at h
  have hb : (4294965248#32 : BitVec 32).sle v = true := by
    cases hc : (4294965248#32 : BitVec 32).sle v
    · rw [hc] at h; exact absurd h (by decide)
    · rfl
  have h' := BitVec.sle_iff_toInt_le.mp hb
  have h2 : (4294965248#32 : BitVec 32).toInt = -2048 := by decide
  rw [h2] at h'; exact h'

theorem slt_2048 (v : BitVec 32) (h : IntOp.cmpi .slt v 2048#32 = 1#1) : v.toInt < 2048 := by
  simp only [IntOp.cmpi] at h
  have hb : v.slt 2048#32 = true := by
    cases hc : v.slt 2048#32
    · rw [hc] at h; exact absurd h (by decide)
    · rfl
  have h' := BitVec.slt_iff_toInt_lt.mp hb
  have h2 : (2048#32 : BitVec 32).toInt = 2048 := by decide
  rw [h2] at h'; exact h'

end Cert.Sparse
-- ==== Proof.PreFacts.lean ====
/-
  What the domain condition says of the argument arrays: every entry of x and of the weights is a real number (its absolute
  value is below +∞), and every input-column index, read signed, lies in [-2048, 2048) — the range in which the wrap of a
  negative index lands inside the 2048 columns.
-/
import proofs.«426413_j8418135900214_1_alg».proof.Pre_finite_inputs
import Idealize.ShloMosaic.PureOps.Ideal
import Idealize.ShloMosaic.Lib.ReduceAll
import Idealize.ShloMosaic.Lib.Affine
import Idealize.ShloMosaic.Lib.ValueIdx
import proofs.«426413_j8418135900214_1_alg».proof.Proof.Wrap

noncomputable section

namespace Cert.Sparse

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max(y, -y) is below +∞ is neither infinity: it is a real number. -/
theorem real_of_abs_lt_top (y : EReal) (h : max y (-y) < ⊤) : ∃ r : ℝ, y = (r : EReal) := by
  induction y using EReal.rec with
  | bot => simp at h
  | coe r => exact ⟨r, rfl⟩
  | top => simp at h

/-- A Boolean read as a one-bit word is 1 only when it is true. -/
theorem ofBool_one {b : Bool} (h : BitVec.ofBool b = 1#1) : b = true := by
  cases b
  · exact absurd h (by decide)
  · rfl

/-- The comparison |y| < +∞ as the programs spell it, read back. -/
theorem real_of_cmp (y : EReal)
    (h : FloatOps.cmpf (F := Ideal) (φ := .f32) .olt (FloatOps.hostAbsf (F := Ideal) (φ := .f32) y)
      (FloatOps.ofBits (F := Ideal) .f32 0x7F800000#32) = 1#1) : ∃ r : ℝ, y = (r : EReal) := by
  refine real_of_abs_lt_top y ?_
  have h' : Ideal.cmp .olt (max y (-y)) (Ideal.ofBits .f32 0x7F800000#32) = 1#1 := h
  rw [inf_word] at h'
  have h'' : BitVec.ofBool (decide (max y (-y) < (⊤ : EReal))) = 1#1 := h'
  exact of_decide_eq_true (ofBool_one h'')

theorem dom_of_pre (x : FVec Ideal S512x2048 .f32) (w : FVec Ideal S209715 .f32) (bias : FVec Ideal S2048 .f32)
    (iin iout : IVec S209715 32) (h : fn (F := Ideal) x w bias iin iout = fun _ => 1#1) :
    (∀ i, ∃ r : ℝ, x i = (r : EReal)) ∧ (∀ i, ∃ r : ℝ, w i = (r : EReal))
      ∧ ∀ i, -2048 ≤ (iin i).toInt ∧ (iin i).toInt < 2048 := by
  have h0 := congrFun h ix0
  dsimp only [fn, fn_part1] at h0
  simp only [andi, IntOp.andi_eq_one] at h0
  obtain ⟨⟨⟨⟨hx, hw⟩, _⟩, hge⟩, hlt⟩ := h0
  refine ⟨fun i => ?_, fun i => ?_, fun i => ⟨?_, ?_⟩⟩
  · exact real_of_cmp (x i) (Host.reduce_andi_all _ _ _ _ _ hx i)
  · exact real_of_cmp (w i) (Host.reduce_andi_all _ _ _ _ _ hw i)
  · exact sge_neg2048 (iin i) (Host.reduce_andi_all _ _ _ _ _ hge i)
  · exact slt_2048 (iin i) (Host.reduce_andi_all _ _ _ _ _ hlt i)

end Cert.Sparse

end
-- ==== Proof.Spec.lean ====
/-
  The common value of the two programs, as one function of the argument arrays.
  With E = 209715 edges, each edge e carrying an input column in(e), an output column out(e) (both read after the wrap of
  a negative index) and a weight w e:
      out[b, j] = (0 + Σ_e [out(e) = j] · x[b, col(in(e))] · w e) + bias[j]
  where col clamps the wrapped index into the 2048 columns, as a gather does, and an edge whose output column is outside
  [0, 2048) meets no j and so contributes nothing, as a scatter drops it.
-/
import Idealize.ShloMosaic.PureOps.Ideal
import Idealize.ShloMosaic.Lib.ValueIdx
import proofs.«426413_j8418135900214_1_alg».proof.Proof.Wrap

noncomputable section

namespace Cert.Sparse

open Idealize.ShloMosaic Idealize.ShloMosaic.ValueIdx

/-- The column of x an edge reads: its wrapped index clamped into [0, 2047]. -/
def colOf (v : BitVec 32) : Fin 2048 := ⟨min (wrap v).toInt.toNat 2047, by omega⟩

/-- In range, the clamp does nothing: the column is the wrapped index itself. -/
theorem colOf_val (v : BitVec 32) (h0 : 0 ≤ (wrap v).toInt) (h1 : (wrap v).toInt < 2048) :
    ((colOf v).val : Int) = (wrap v).toInt := by
  show ((min (wrap v).toInt.toNat 2047 : Nat) : Int) = _
  omega

/-- Row b's contribution to output column j, summed over the edges. -/
def edgeSum (x : (⟨2, ![512, 2048]⟩ : Shape).Idx → EReal) (w : (⟨1, ![209715]⟩ : Shape).Idx → EReal)
    (iin iout : IVec ⟨1, ![209715]⟩ 32) (b : Fin 512) (j : Fin 2048) : EReal :=
  ∑ e : Fin 209715, if (wrap (iout (ix1 e))).toInt = (j.val : Int) then x (ix2 b (colOf (iin (ix1 e)))) * w (ix1 e) else 0

/-- The result array. -/
def G (x : (⟨2, ![512, 2048]⟩ : Shape).Idx → EReal) (w : (⟨1, ![209715]⟩ : Shape).Idx → EReal)
    (bias : (⟨1, ![2048]⟩ : Shape).Idx → EReal) (iin iout : IVec ⟨1, ![209715]⟩ 32) :
    (⟨2, ![512, 2048]⟩ : Shape).Idx → EReal :=
  fun i => (0 + edgeSum x w iin iout (i 0) (i 1)) + bias (ix1 (i 1))

end Cert.Sparse

end
-- ==== Proof.ScatterIdx.lean ====
/-
  Where a scatter's update lands, for the two layouts of scatter indices met here.
  A column of start indices [E,1] scattering the columns of a [B,E] update into a [B,N] operand: update (b,e) lands in
  row b at the column the e-th index names, read as a signed integer, and lands nowhere when that integer is outside [0,N).
  A table of index pairs [E,2] scattering a vector [E] into a matrix [N,M]: update e lands at (first, second) of its pair,
  nowhere when either is outside its axis.
-/
import Idealize.ShloMosaic.PureOps
import Idealize.ShloMosaic.Lib.ValueIdx

namespace Cert.Sparse

open Idealize.ShloMosaic Idealize.ShloMosaic.ValueIdx

/-- An update lands at `r` exactly when start plus window coordinate is `r`'s coordinate on every axis. -/
private theorem resultIdx?_eq_some_iff {s si u : Shape} {w : Nat} (d : ScatterDims s si u) (j : u.Idx) (idx : IVec si w)
    (r : s.Idx) :
    d.resultIdx? j idx = some r ↔ ∀ a, d.start j idx a + (d.window j a : Int) = ((r a).val : Int) := by
  unfold ScatterDims.resultIdx?
  split
  · rename_i h
    constructor
    · intro heq a
      have hr := Option.some.inj heq
      rw [← hr]
      have := h a
      simp only []
      omega
    · intro hr
      congr 1
      funext a
      apply Fin.ext
      have := hr a
      simp only []
      omega
  · rename_i h
    constructor
    · intro heq
      cases heq
    · intro hr
      exfalso
      apply h
      intro a
      have := hr a
      have := (r a).isLt
      omega

/-- No operand axis is kept when both are inserted window axes: the window coordinate is zero on each. -/
private theorem window_pairs {N M E : Nat} (d : ScatterDims ⟨2, ![N, M]⟩ ⟨2, ![E, 2]⟩ ⟨1, ![E]⟩)
    (hiw : d.insertedWindowDims = [0, 1]) (j : (⟨1, ![E]⟩ : Shape).Idx) (a : Fin 2) : d.window j a = 0 := by
  unfold ScatterDims.window
  rw [dif_neg]
  simp only [ScatterDims.sKept, Shape.kept, hiw, List.mem_filter, List.mem_finRange]
  match a with
  | ⟨0, _⟩ => simp
  | ⟨1, _⟩ => simp

/-- The scatter-indices index of component `c` of update `e`'s pair: row `e`, column `c`. -/
private theorem siIdx_pairs {N M E : Nat} (d : ScatterDims ⟨2, ![N, M]⟩ ⟨2, ![E, 2]⟩ ⟨1, ![E]⟩)
    (hiv : d.indexVectorDim = 1) (e : Fin E) (c : Fin d.scatterDimsToOperandDims.length) (c' : Fin 2)
    (hc : c.val = c'.val) : d.siIdx (ix1 e) c = ix2 e c' := by
  funext b
  match b with
  | ⟨0, _⟩ =>
    unfold ScatterDims.siIdx
    rw [dif_neg (by rw [hiv]; simp)]
    unfold ScatterDims.siCoord
    apply Fin.ext
    simp only [Fin.val_cast]
    have e1 : ∀ X : Fin 1, ((ix1 e : (⟨1, ![E]⟩ : Shape).Idx) X).val = e.val := fun X => by
      have hX : X = 0 := Subsingleton.elim _ _
      subst hX; rfl
    exact e1 _
  | ⟨1, _⟩ =>
    unfold ScatterDims.siIdx
    rw [dif_pos (by rw [hiv])]
    apply Fin.ext
    exact hc

private theorem start_pairs {N M E w : Nat} (d : ScatterDims ⟨2, ![N, M]⟩ ⟨2, ![E, 2]⟩ ⟨1, ![E]⟩)
    (hsd : d.scatterDimsToOperandDims = [0, 1]) (hiv : d.indexVectorDim = 1)
    (idx : IVec ⟨2, ![E, 2]⟩ w) (e : Fin E) (a : Fin 2) : d.start (ix1 e) idx a = (idx (ix2 e a)).toInt := by
  unfold ScatterDims.start
  have ha : a ∈ d.scatterDimsToOperandDims := by
    rw [hsd]
    match a with
    | ⟨0, _⟩ => simp
    | ⟨1, _⟩ => simp
  rw [dif_pos ha]
  rw [siIdx_pairs d hiv e _ a]
  show List.idxOf a d.scatterDimsToOperandDims = a.val
  rw [hsd]
  match a with
  | ⟨0, _⟩ => simp
  | ⟨1, _⟩ => simp

/-- With the column axis the one inserted window axis, the row axis is the operand's one kept axis: the window
    coordinate is the update's row there, and zero on the column axis. -/
private theorem window_cols {B N E : Nat} (d : ScatterDims ⟨2, ![B, N]⟩ ⟨2, ![E, 1]⟩ ⟨2, ![B, E]⟩)
    (huw : d.updateWindowDims = [0]) (hiw : d.insertedWindowDims = [1]) (b : Fin B) (e : Fin E) :
    d.window (ix2 b e) (0 : Fin 2) = b.val ∧ d.window (ix2 b e) (1 : Fin 2) = 0 := by
  constructor
  · unfold ScatterDims.window
    have h0 : (0 : Fin 2) ∈ d.sKept := by
      simp [ScatterDims.sKept, Shape.kept, hiw, List.mem_filter, List.mem_finRange]
    rw [dif_pos h0]
    have hall : ∀ x ∈ d.updateWindowDims, x = (0 : Fin 2) := by
      intro x hx
      rw [huw] at hx
      exact List.mem_singleton.mp hx
    have hval : ∀ X : Fin 2, X = 0 → ((ix2 b e : (⟨2, ![B, E]⟩ : Shape).Idx) X).val = b.val := fun X hX => by
      subst hX; rfl
    exact hval _ (hall _ (List.getElem_mem _))
  · unfold ScatterDims.window
    rw [dif_neg]
    simp [ScatterDims.sKept, Shape.kept, hiw, List.mem_filter, List.mem_finRange]

/-- The scatter-indices index of update `(b, e)`'s one start-index component: row `e` of the column. -/
private theorem siIdx_cols {B N E : Nat} (d : ScatterDims ⟨2, ![B, N]⟩ ⟨2, ![E, 1]⟩ ⟨2, ![B, E]⟩)
    (huw : d.updateWindowDims = [0]) (hiv : d.indexVectorDim = 1) (b : Fin B) (e : Fin E)
    (c : Fin d.scatterDimsToOperandDims.length) (hc : c.val = 0) : d.siIdx (ix2 b e) c = ix2 e (0 : Fin 1) := by
  funext a
  match a with
  | ⟨0, _⟩ =>
    unfold ScatterDims.siIdx
    rw [dif_neg (by rw [hiv]; simp)]
    unfold ScatterDims.siCoord
    apply Fin.ext
    simp only [Fin.val_cast]
    have hall : ∀ x ∈ d.uScatter, x = (1 : Fin 2) := by
      intro x hx
      simp only [ScatterDims.uScatter, Shape.kept, huw, List.mem_filter, List.mem_finRange, List.mem_singleton,
        true_and, decide_eq_true_eq] at hx
      match x, hx with
      | ⟨0, _⟩, hx => exact absurd rfl hx
      | ⟨1, _⟩, _ => rfl
    have hval : ∀ X : Fin 2, X = 1 → ((ix2 b e : (⟨2, ![B, E]⟩ : Shape).Idx) X).val = e.val := fun X hX => by
      subst hX; rfl
    exact hval _ (hall _ (List.getElem_mem _))
  | ⟨1, _⟩ =>
    unfold ScatterDims.siIdx
    rw [dif_pos (by rw [hiv])]
    apply Fin.ext
    exact hc

/-- The start is zero on the row axis, which the map does not name, and the `e`-th index read signed on the column axis. -/
private theorem start_cols {B N E w : Nat} (d : ScatterDims ⟨2, ![B, N]⟩ ⟨2, ![E, 1]⟩ ⟨2, ![B, E]⟩)
    (huw : d.updateWindowDims = [0]) (hsd : d.scatterDimsToOperandDims = [1]) (hiv : d.indexVectorDim = 1)
    (idx : IVec ⟨2, ![E, 1]⟩ w) (b : Fin B) (e : Fin E) :
    d.start (ix2 b e) idx (0 : Fin 2) = 0 ∧ d.start (ix2 b e) idx (1 : Fin 2) = (idx (ix2 e (0 : Fin 1))).toInt := by
  constructor
  · unfold ScatterDims.start
    rw [dif_neg]
    rw [hsd]; simp
  · unfold ScatterDims.start
    have ha : (1 : Fin 2) ∈ d.scatterDimsToOperandDims := by rw [hsd]; exact List.mem_singleton.mpr rfl
    rw [dif_pos ha]
    rw [siIdx_cols d huw hiv b e _]
    show List.idxOf (1 : Fin 2) d.scatterDimsToOperandDims = 0
    rw [hsd]; simp

theorem resultIdx?_cols {B N E w : Nat} (d : ScatterDims ⟨2, ![B, N]⟩ ⟨2, ![E, 1]⟩ ⟨2, ![B, E]⟩)
    (huw : d.updateWindowDims = [0]) (hiw : d.insertedWindowDims = [1]) (hsd : d.scatterDimsToOperandDims = [1])
    (hiv : d.indexVectorDim = 1)
    (idx : IVec ⟨2, ![E, 1]⟩ w) (b : Fin B) (e : Fin E) (b' : Fin B) (j : Fin N) :
    d.resultIdx? (ix2 b e) idx = some (ix2 b' j) ↔ b = b' ∧ (idx (ix2 e (0 : Fin 1))).toInt = (j.val : Int) := by
  rw [resultIdx?_eq_some_iff]
  obtain ⟨hs0, hs1⟩ := start_cols d huw hsd hiv idx b e
  obtain ⟨hw0, hw1⟩ := window_cols d huw hiw b e
  constructor
  · intro h
    have h0 := h (0 : Fin 2)
    have h1 := h (1 : Fin 2)
    rw [hs0, hw0] at h0
    rw [hs1, hw1] at h1
    refine ⟨Fin.ext ?_, by simpa using h1⟩
    have h0' : (0 : Int) + (b.val : Int) = (b'.val : Int) := h0
    omega
  · rintro ⟨hb, hj⟩ a
    match a with
    | ⟨0, _⟩ =>
      show d.start (ix2 b e) idx (0 : Fin 2) + (d.window (ix2 b e) (0 : Fin 2) : Int) = (b'.val : Int)
      rw [hs0, hw0, hb]; simp
    | ⟨1, _⟩ =>
      show d.start (ix2 b e) idx (1 : Fin 2) + (d.window (ix2 b e) (1 : Fin 2) : Int) = (j.val : Int)
      rw [hs1, hw1, hj]; simp

theorem resultIdx?_pairs {N M E w : Nat} (d : ScatterDims ⟨2, ![N, M]⟩ ⟨2, ![E, 2]⟩ ⟨1, ![E]⟩)
    (huw : d.updateWindowDims = []) (hiw : d.insertedWindowDims = [0, 1]) (hsd : d.scatterDimsToOperandDims = [0, 1])
    (hiv : d.indexVectorDim = 1)
    (idx : IVec ⟨2, ![E, 2]⟩ w) (e : Fin E) (k : Fin N) (j : Fin M) :
    d.resultIdx? (ix1 e) idx = some (ix2 k j)
      ↔ (idx (ix2 e (0 : Fin 2))).toInt = (k.val : Int) ∧ (idx (ix2 e (1 : Fin 2))).toInt = (j.val : Int) := by
  rw [resultIdx?_eq_some_iff]
  constructor
  · intro h
    have h0 := h (0 : Fin 2)
    have h1 := h (1 : Fin 2)
    rw [start_pairs d hsd hiv, window_pairs d hiw] at h0 h1
    exact ⟨by simpa using h0, by simpa using h1⟩
  · rintro ⟨h0, h1⟩ a
    rw [start_pairs d hsd hiv, window_pairs d hiw]
    match a with
    | ⟨0, _⟩ => simpa using h0
    | ⟨1, _⟩ => simpa using h1

end Cert.Sparse
-- ==== Proof.GatherIdx.lean ====
/-
  Which element a gather of whole columns reads: the operand [B,N] gathered along its second axis at a column [E,1] of
  start indices gives a [B,E] result whose element (b,e) is the operand's row b at the e-th start index, read as a signed
  integer and clamped into [0, N-1].
-/
import Idealize.ShloMosaic.PureOps
import Idealize.ShloMosaic.Lib.ValueIdx

namespace Cert.Sparse

open Idealize.ShloMosaic Idealize.ShloMosaic.ValueIdx

theorem gather_cols {α : Type} {B N E w : Nat} (d : GatherDims ⟨2, ![B, N]⟩ ⟨2, ![E, 1]⟩ ⟨2, ![B, E]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (x : (⟨2, ![B, N]⟩ : Shape).Idx → α) (idx : IVec ⟨2, ![E, 1]⟩ w) (b : Fin B) (e : Fin E) (hN : 0 < N) :
    Host.gather d x idx (ix2 b e)
      = x (ix2 b (⟨min (idx (ix2 e (0 : Fin 1))).toInt.toNat (N - 1), by omega⟩ : Fin N)) := by
  unfold Host.gather
  congr 1
  funext a
  apply Fin.ext
  -- every offset axis of the result is its axis 0, every batch axis its axis 1
  have hoffAll : ∀ a ∈ d.offsetDims, a = 0 := by rw [hoff]; simp
  have hbatAll : ∀ a ∈ d.batchDims, a = 1 := by
    intro a ha
    simp only [GatherDims.batchDims, Shape.kept, hoff, List.mem_filter, List.mem_finRange, true_and] at ha
    have hne : a ≠ 0 := by simpa using ha
    match a, hne with
    | ⟨0, _⟩, h => exact absurd rfl h
    | ⟨1, _⟩, _ => rfl
  have hb0 : ∀ a : Fin 2, a ∉ d.operandBatchingDims := by intro a; rw [hob]; exact List.not_mem_nil
  match a with
  | ⟨0, _⟩ =>
    show d.start (ix2 b e) idx 0 + d.batchCoord (ix2 b e) 0 + d.offCoord (ix2 b e) 0 = b.val
    have hm : (0 : Fin 2) ∉ d.startIndexMap := by rw [hsim]; simp
    have hk : (0 : Fin 2) ∈ d.sKept := by rw [GatherDims.mem_sKept, hcoll, hob]; simp
    rw [GatherDims.batchCoord_eq_zero _ _ _ (hb0 _)]
    unfold GatherDims.start GatherDims.offCoord
    rw [dif_neg hm, dif_pos hk]
    rw [hoffAll _ (List.getElem_mem _)]
    show 0 + 0 + b.val = b.val
    omega
  | ⟨1, _⟩ =>
    show d.start (ix2 b e) idx 1 + d.batchCoord (ix2 b e) 1 + d.offCoord (ix2 b e) 1 = min (idx (ix2 e (0 : Fin 1))).toInt.toNat (N - 1)
    have hm : (1 : Fin 2) ∈ d.startIndexMap := by rw [hsim]; exact List.mem_singleton.mpr rfl
    have hk : (1 : Fin 2) ∉ d.sKept := by rw [GatherDims.mem_sKept, hcoll]; simp
    have hsl : d.sliceSizes 1 = 1 := d.slice_collapsed 1 (by rw [hcoll]; exact List.mem_singleton.mpr rfl)
    rw [GatherDims.batchCoord_eq_zero _ _ _ (hb0 _), GatherDims.offCoord_eq_zero _ _ _ hk]
    unfold GatherDims.start
    rw [dif_pos hm, hsl]
    -- the start-indices index read: the result's batch coordinate e on axis 0, the one component on axis 1
    have hsi : d.siIdx (ix2 b e) ⟨List.idxOf (1 : Fin 2) d.startIndexMap, List.idxOf_lt_length_iff.2 hm⟩
        = ix2 e (0 : Fin 1) := by
      funext c
      match c with
      | ⟨0, _⟩ =>
        unfold GatherDims.siIdx
        rw [dif_neg (by rw [hivd]; simp)]
        unfold GatherDims.siCoord
        apply Fin.ext
        simp only [Fin.val_cast]
        rw [hbatAll _ (List.getElem_mem _)]
        rfl
      | ⟨1, _⟩ =>
        unfold GatherDims.siIdx
        rw [dif_pos (by rw [hivd])]
        apply Fin.ext
        show List.idxOf (1 : Fin 2) d.startIndexMap = 0
        rw [hsim]; simp
    rw [hsi]
    show min (idx (ix2 e (0 : Fin 1))).toInt.toNat (N - 1) + 0 + 0 = _
    omega

end Cert.Sparse
-- ==== Proof.RefValue.lean ====
/-
  The reference computes G. Its gather reads, for edge e, column col(in(e)) of x in every row; the product with the
  weight broadcast along the rows gives g[b, e] = x[b, col(in(e))] · w e; its scatter-add of the columns of g into a zero
  array adds g[b, e] to out[b, out(e)] when out(e) is one of the 2048 columns and drops it otherwise; the bias row is added
  to every row. Read at (b, j): the sum over the pairs (b', e) that land at (b, j) is the sum over the edges with out(e) = j.
-/
import proofs.«426413_j8418135900214_1_alg».proof.Proof.Gen.ReferenceIdeal.Read
import Idealize.ShloMosaic.PureOps.Ideal
import Idealize.ShloMosaic.PureOps.Ideal.Laws
import Idealize.ShloMosaic.Lib.ValueIdx
import proofs.«426413_j8418135900214_1_alg».proof.Proof.Spec
import proofs.«426413_j8418135900214_1_alg».proof.Proof.ScatterIdx
import proofs.«426413_j8418135900214_1_alg».proof.Proof.GatherIdx

noncomputable section

namespace Cert.Sparse.Ref

open Idealize.ShloMosaic Idealize.ShloMosaic.ValueIdx Cert.Sparse
open Cert.ReferenceIdeal Cert.ReferenceIdeal.Gen Cert.ReferenceIdeal.Read

/-- The column of start indices the gather reads holds, at edge e, the wrapped input index. -/
theorem inIdx_at (iin : IVec S209715 32) (e : Fin 209715) :
    val_main_v5 (F := Ideal) iin (ix2 e (0 : Fin 1)) = wrap (iin (ix1 e)) := by
  have hi : idx_main_v5 (ix2 e (0 : Fin 1)) = ix1 e := funext fun a => match a with | ⟨0, _⟩ => rfl
  rw [val_main_v5_apply, hi, val_main_v4_apply, val_main_v1_apply, val_main_v3_apply, val_main_v0_apply,
    val_main_v2_apply, val_main_c_apply, val_main_c_0_apply]
  rfl

/-- The column of scatter indices holds, at edge e, the wrapped output index. -/
theorem outIdx_at (iout : IVec S209715 32) (e : Fin 209715) :
    val_main_v16 (F := Ideal) iout (ix2 e (0 : Fin 1)) = wrap (iout (ix1 e)) := by
  have hi : idx_main_v16 (ix2 e (0 : Fin 1)) = ix1 e := funext fun a => match a with | ⟨0, _⟩ => rfl
  rw [val_main_v16_apply, hi, val_main_v15_apply, val_main_v12_apply, val_main_v14_apply, val_main_v11_apply,
    val_main_v13_apply, val_main_c_1_apply, val_main_c_2_apply]
  rfl

/-- The scaled gather at (b, e): x[b, col(in(e))] · w e. -/
theorem scaled_at (x : FVec Ideal S512x2048 .f32) (w : FVec Ideal S209715 .f32) (iin : IVec S209715 32)
    (b : Fin 512) (e : Fin 209715) :
    val_main_v9 (F := Ideal) x w iin (ix2 b e) = x (ix2 b (colOf (iin (ix1 e)))) * w (ix1 e) := by
  have hw : idx_main_v7 (idx_main_v8 (ix2 b e)) = ix1 e := funext fun a => match a with | ⟨0, _⟩ => rfl
  rw [val_main_v9_apply, val_main_v8_apply, val_main_v7_apply, hw]
  unfold val_main_v6
  rw [gather_cols _ rfl rfl rfl rfl rfl rfl x _ b e (by decide)]
  simp only [inIdx_at]
  rfl

theorem ref_is_G (x : FVec Ideal S512x2048 .f32) (w : FVec Ideal S209715 .f32) (bias : FVec Ideal S2048 .f32)
    (iin iout : IVec S209715 32) :
    val_main_v20 (F := Ideal) x w bias iin iout = G x w bias iin iout := by
  funext i
  obtain ⟨b, j, rfl⟩ : ∃ (b : Fin 512) (j : Fin 2048), i = ix2 b j := ⟨i 0, i 1, eq_ix2 i⟩
  have hbias : val_main_v19 (F := Ideal) bias (ix2 b j) = bias (ix1 j) := by
    rw [val_main_v19_apply, val_main_v18_apply]
    exact congrArg bias (funext fun a => match a with | ⟨0, _⟩ => rfl)
  have hzero : val_main_v10 (F := Ideal) (ix2 b j) = (0 : EReal) := by
    rw [val_main_v10_apply, val_main_cst_apply]
    exact Ideal.ofBits_zero_f32
  have hsc : val_main_v17 (F := Ideal) x w iin iout (ix2 b j) = 0 + edgeSum x w iin iout b j := by
    unfold val_main_v17 Host.scatterAdd
    rw [Ideal.hostScatterAdd_def]
    unfold Ideal.hostScatterAdd
    rw [hzero]
    refine congrArg (fun s : EReal => (0 : EReal) + s) ?_
    rw [Finset.sum_filter, sum_idx2, Finset.sum_comm]
    unfold edgeSum
    refine Finset.sum_congr rfl fun e _ => ?_
    simp only [resultIdx?_cols scatter_S512x2048_S209715x1_S512x209715_0_1_1_1 rfl rfl rfl rfl, outIdx_at, scaled_at]
    by_cases hq : (wrap (iout (ix1 e))).toInt = (j.val : Int)
    · simp only [hq, and_true, if_true, Finset.sum_ite_eq', Finset.mem_univ]
    · simp only [hq, and_false, if_false, Finset.sum_const_zero]
  rw [val_main_v20_apply, hbias, hsc]
  rfl

end Cert.Sparse.Ref

end
-- ==== Proof.KernelDefs.lean ====
/-
  The kernel's side as functions of the argument arrays: the dense form of the product, and the matrix the host builds —
  the wrap of a negative index on a whole index vector, the table of (input, output) index pairs, and the weights
  scatter-added into a zero matrix at those pairs.
-/
import proofs.«426413_j8418135900214_1_alg».proof.Proof.Gen.KernelIdeal
import Idealize.ShloMosaic.PureOps.Ideal
import Idealize.ShloMosaic.Lib.ValueIdx

noncomputable section

namespace Cert.Sparse.Ker

open Idealize.ShloMosaic Idealize.ShloMosaic.ValueIdx
open Cert.KernelIdeal Cert.KernelIdeal.Gen

/-- The dense form: row i₀ of X against column i₁ of A, plus the bias row at i₁. -/
def Dense (X : S512x2048.Idx → EReal) (A : S2048x2048.Idx → EReal) (Bv : S1x2048.Idx → EReal) : S512x2048.Idx → EReal :=
  fun i => (∑ k : Fin 2048, X (ix2 (i 0) k) * A (ix2 k (i 1))) + Bv (ix2 (0 : Fin 1) (i 1))

/-- The wrap of a negative index, on a whole index vector, as the host spells it. -/
def wrapVec (v : IVec S209715 32) : IVec S209715 32 :=
  select (cmpi .slt v (broadcastInDim S209715 ![] bcast_S_S209715 (constantI S_ 32 0#32)))
    (addi v (broadcastInDim S209715 ![] bcast_S_S209715 (constantI S_ 32 2048#32))) v

/-- The table of index pairs: the wrapped input indices beside the wrapped output indices. -/
def pairs (iin iout : IVec S209715 32) : IVec S209715x2 32 :=
  concatenate S209715x2 1
    [⟨S209715x1, broadcastInDim S209715x1 ![0] bcast_S209715_S209715x1_0 (wrapVec iin)⟩,
     ⟨S209715x1, broadcastInDim S209715x1 ![0] bcast_S209715_S209715x1_0 (wrapVec iout)⟩]
    concatenates_S209715x1_S209715x1_S209715x2_d1

/-- The dense matrix: the weights scatter-added into a zero matrix at the index pairs. -/
def Amat (w : FVec Ideal S209715 .f32) (iin iout : IVec S209715 32) : FVec Ideal S2048x2048 .f32 :=
  Host.scatterAdd scatter_S2048x2048_S209715x2_S209715_n_01_01_1
    (broadcastInDim S2048x2048 ![] bcast_S_S2048x2048 (constant (F := Ideal) S_ .f32 0x00000000#32)) (pairs iin iout) w

end Cert.Sparse.Ker

end
-- ==== Proof.KernelBlocks.lean ====
/-
  The kernel's output array after the run is the dense form x · A + bias of the arrays the region finds.
  One grid point multiplies the whole of x (512 × 2048) by a 512-column block of A and adds the matching 512 entries of the
  bias row; read at (p, q) of the block that is the sum over the 2048 contracted positions of x[p, k] · A[k, q] plus the bias
  entry. Point t's blocks sit at column block t, so what it writes back is block t of the dense form, and the four blocks
  fill the output.
-/
import proofs.«426413_j8418135900214_1_alg».proof.Proof.Gen.KernelIdeal.Value
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«426413_j8418135900214_1_alg».proof.Proof.KernelDefs

noncomputable section

namespace Cert.Sparse.Ker

open Idealize.ShloMosaic Idealize.ShloMosaic.ValueIdx Idealize.ShloMosaic.TcCoe Idealize.SL.Sem
open Cert.KernelIdeal Cert.KernelIdeal.Gen

/-! ## The product's operand indices, axis by axis -/

theorem lhs_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl

theorem lhs_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q

theorem rhs_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q

theorem rhs_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- The body's value at (p, q) of a block: the row p of the x block against the column q of the A block, summed over the
    2048 contracted positions (the narrowing to bf16 changes nothing over the extended reals, the accumulator is zero),
    plus the bias row at q. -/
theorem pay_at (x0 : Vec Ideal S512x2048 .f32) (x1 : Vec Ideal S2048x512 .f32) (x2 : Vec Ideal S1x512 .f32)
    (p q : Fin 512) :
    k0_pay1 (F := Ideal) x0 x1 x2 (ix2 p q)
      = (∑ k : Fin 2048, x0 (ix2 p k) * x1 (ix2 k q)) + x2 (ix2 (0 : Fin 1) q) := by
  unfold k0_pay1
  rw [shapeCast_self, shapeCast_self, addf_apply, broadcastTo_1b_ab_apply]
  refine congrArg (fun s : EReal => s + x2 (ix2 (0 : Fin 1) q)) ?_
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k :=
    funext fun a => Fin.ext (by
      match a with
      | ⟨0, _⟩ => exact lhs_0 _ _
      | ⟨1, _⟩ => exact (lhs_1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q :=
    funext fun a => Fin.ext (by
      match a with
      | ⟨0, _⟩ => exact (rhs_0 _ _).trans hk
      | ⟨1, _⟩ => exact rhs_1 _ _)
  rw [truncf_apply, truncf_apply, el, er]

/-! ## From the blocks to the array -/

variable (m : (ℓ : Loc nD τ sig) → Buf (Elt Ideal) ℓ)

theorem hz : (![0, 0] : Fin 2 → Nat) = fun _ => 0 := funext fun a => by fin_cases a <;> rfl

/-- The printed index maps over the four grid points: x is one block; A, the bias row and the output move together along
    the columns, point t at column block t. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What point t writes back is block t of the dense form of the arrays as the region finds them. -/
theorem flushed_eq (c : Dev nD) (t : Fin cfg0.N) :
    (dats m 0 c).flushed 3 t
      = ((cfg0.win 3).blk t).view.read (Elt Ideal) (Dense (V m c main_arg0) (V m c main_v14) (V m c main_v15)) := by
  show (cfg0.win 3).cut (grid0.coords t) ((dats m 0 c).after 3 t) = _
  rw [after0_3]
  unfold out0_3
  rw [View.canon_unit_zero hz]
  simp only [View.ld_unit_zero (S := S512x2048) hz, View.ld_unit_zero (S := S2048x512) hz,
    View.ld_unit_zero (S := S1x512) hz]
  obtain ⟨e00, e01, e10, e11, e20, e21, e30, e31⟩ := idx_facts t
  funext y
  obtain ⟨p, q, rfl⟩ : ∃ (p q : Fin 512), y = ix2 p q := ⟨y 0, y 1, eq_ix2 y⟩
  show k0_pay1 (F := Ideal) (iblk m c 0 t) (iblk m c 1 t) (iblk m c 2 t) (ix2 p q)
    = Dense (V m c main_arg0) (V m c main_v14) (V m c main_v15) (((cfg0.win 3).blk t).view.emb (ix2 p q))
  refine (pay_at (iblk m c 0 t) (iblk m c 1 t) (iblk m c 2 t) p q).trans ?_
  have hI0 : ((((cfg0.win 3).blk t).view.emb (ix2 p q)) 0).val = win0_3.index t (0 : Fin 2) * 512 + 1 * p.val := rfl
  have hI1 : ((((cfg0.win 3).blk t).view.emb (ix2 p q)) 1).val = win0_3.index t (1 : Fin 2) * 512 + 1 * q.val := rfl
  generalize ((cfg0.win 3).blk t).view.emb (ix2 p q) = I at hI0 hI1
  have hx : ∀ k : Fin 2048, iblk m c 0 t (ix2 p k) = V m c main_arg0 (ix2 (I 0) k) := fun k => by
    show V m c main_arg0 (((cfg0.win 0).blk t).view.emb (ix2 p k)) = V m c main_arg0 (ix2 (I 0) k)
    refine congrArg (V m c main_arg0) (funext fun a => Fin.ext ?_)
    match a with
    | ⟨0, _⟩ => show win0_0.index t (0 : Fin 2) * 512 + 1 * p.val = (I 0).val; omega
    | ⟨1, _⟩ => show win0_0.index t (1 : Fin 2) * 2048 + 1 * k.val = k.val; omega
  have ha : ∀ k : Fin 2048, iblk m c 1 t (ix2 k q) = V m c main_v14 (ix2 k (I 1)) := fun k => by
    show V m c main_v14 (((cfg0.win 1).blk t).view.emb (ix2 k q)) = V m c main_v14 (ix2 k (I 1))
    refine congrArg (V m c main_v14) (funext fun a => Fin.ext ?_)
    match a with
    | ⟨0, _⟩ => show win0_1.index t (0 : Fin 2) * 2048 + 1 * k.val = k.val; omega
    | ⟨1, _⟩ => show win0_1.index t (1 : Fin 2) * 512 + 1 * q.val = (I 1).val; omega
  have hb : iblk m c 2 t (ix2 (0 : Fin 1) q) = V m c main_v15 (ix2 (0 : Fin 1) (I 1)) := by
    show V m c main_v15 (((cfg0.win 2).blk t).view.emb (ix2 (0 : Fin 1) q)) = V m c main_v15 (ix2 (0 : Fin 1) (I 1))
    refine congrArg (V m c main_v15) (funext fun a => Fin.ext ?_)
    match a with
    | ⟨0, _⟩ => show win0_2.index t (0 : Fin 2) * 1 + 1 * 0 = 0; omega
    | ⟨1, _⟩ => show win0_2.index t (1 : Fin 2) * 512 + 1 * q.val = (I 1).val; omega
  rw [hb, Finset.sum_congr rfl fun k _ => by rw [hx k, ha k]]
  rfl

/-- An index of the output array is in point t's block iff each coordinate is in the block's range on its axis. -/
theorem mem_blk (t : Fin cfg0.N) (i : S512x2048.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v16).slice (win0_3.rect t)).set ↔ _
  rw [View.set_slice_whole, Rect.mem_set_unit]
  exact Iff.rfl

/-- The four column blocks fill the array: column j is in the block of point j / 512. -/
theorem cover (i : S512x2048.Idx) :
    ∃ t : Fin cfg0.N, (cfg0.win 3).flush t = true ∧ i ∈ ((cfg0.win 3).blk t).view.set := by
  have hi0 : (i 0).val < 512 := (i 0).isLt
  have hi1 : (i 1).val < 2048 := (i 1).isLt
  refine ⟨⟨(i 1).val / 512, by rw [show cfg0.N = 4 from N_0]; omega⟩, flush0_3 _, ?_⟩
  rw [mem_blk]
  obtain ⟨-, -, -, -, -, -, e30, e31⟩ := idx_facts ⟨(i 1).val / 512, by rw [show cfg0.N = 4 from N_0]; omega⟩
  intro a
  match a with
  | ⟨0, _⟩ =>
    show win0_3.index _ (0 : Fin 2) * 512 ≤ (i 0).val ∧ (i 0).val < win0_3.index _ (0 : Fin 2) * 512 + 512
    rw [e30]; omega
  | ⟨1, _⟩ =>
    show win0_3.index _ (1 : Fin 2) * 512 ≤ (i 1).val ∧ (i 1).val < win0_3.index _ (1 : Fin 2) * 512 + 512
    rw [e31]; show (i 1).val / 512 * 512 ≤ (i 1).val ∧ (i 1).val < (i 1).val / 512 * 512 + 512; omega

/-- The output array after the run is the dense form of the arrays as the region finds them. -/
theorem final (c : Dev nD) :
    (dats m 0 c).arrAt 3 cfg0.N = Dense (V m c main_arg0) (V m c main_v14) (V m c main_v15) :=
  (dats m 0 c).arrAt_eq_of_cover 3 (Dense (V m c main_arg0) (V m c main_v14) (V m c main_v15))
    (fun t _ => flushed_eq m c t) cover

end Cert.Sparse.Ker

end
-- ==== Proof.KernelHost.lean ====
/-
  The two arrays the host writes before the region, as functions of the argument arrays: the dense matrix (the weights
  scatter-added at the wrapped index pairs) and the bias vector laid out as one row.
-/
import proofs.«426413_j8418135900214_1_alg».proof.Proof.Gen.KernelIdeal.Frame
import Idealize.ShloMosaic.PureOps.Ideal
import Idealize.ShloMosaic.Lib.StableHlo.Run
import proofs.«426413_j8418135900214_1_alg».proof.Proof.KernelDefs

noncomputable section

namespace Cert.Sparse.Ker

open Idealize.ShloMosaic Idealize.ShloMosaic.TcCoe Idealize.SL.Sem
open Cert.KernelIdeal Cert.KernelIdeal.Gen

variable (m : (ℓ : Loc nD τ sig) → Buf (Elt Ideal) ℓ)

set_option maxHeartbeats 4000000 in
/-- The matrix the region finds is the one the host built from the argument arrays. -/
theorem A_host (c : Dev nD) :
    (V m c main_v14 : S2048x2048.Idx → EReal)
      = Amat (m ((c.tc : Thread nD τ).loc main_arg1)) (m ((c.tc : Thread nD τ).loc main_arg3)) (m ((c.tc : Thread nD τ).loc main_arg4)) := by
  dsimp only [Gen.V, Gen.hostOps0]
  after_results
  rfl

set_option maxHeartbeats 4000000 in
/-- The bias row the region finds is the bias vector laid out as one row. -/
theorem B_host (c : Dev nD) :
    (V m c main_v15 : S1x2048.Idx → EReal)
      = shapeCast S1x2048 (m ((c.tc : Thread nD τ).loc main_arg2) : S2048.Idx → EReal) shapeCasts_S2048_S1x2048 := by
  dsimp only [Gen.V, Gen.hostOps0]
  after_results
  rfl

end Cert.Sparse.Ker

end
-- ==== Proof.SumLaw.lean ====
/-
  The law that joins the dense and the sparse form of the product. For finitely many columns k and entries e, each entry
  with a column f e and a weight w e, and a condition P on entries:
     Σ_k x k · (0 + Σ_{e : f e = k ∧ P e} w e)  =  Σ_e [P e] x (f e) · w e
  over the reals read as extended reals (distributing x k over the inner sum is where finiteness is used).
-/
import Mathlib.Data.EReal.Basic
import Mathlib.Algebra.BigOperators.Group.Finset.Basic
import Mathlib.Algebra.BigOperators.Group.Finset.Sigma
import Mathlib.Algebra.BigOperators.Ring.Finset

namespace Cert.Sparse

open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_fiber {K E : Type} [Fintype K] [Fintype E] [DecidableEq K] (x : K → ℝ) (w : E → ℝ) (f : E → K)
    (P : E → Prop) [DecidablePred P] :
    ∑ k, (x k : EReal) * ((0 : EReal) + ∑ e ∈ Finset.univ.filter (fun e => f e = k ∧ P e), (w e : EReal))
      = ∑ e, if P e then (x (f e) : EReal) * (w e : EReal) else 0 := by
  -- the identity over the reals: distribute, exchange the two sums, and collapse the sum over columns
  have key : ∑ k, x k * ∑ e ∈ Finset.univ.filter (fun e => f e = k ∧ P e), w e
      = ∑ e, if P e then x (f e) * w e else 0 := by
    simp_rw [Finset.mul_sum, Finset.sum_filter]
    rw [Finset.sum_comm]
    refine Finset.sum_congr rfl fun e _ => ?_
    by_cases hP : P e
    · simp [hP]
    · simp [hP]
  -- each summand on the right is the coercion of a real
  have hite : ∀ e, (if P e then (x (f e) : EReal) * (w e : EReal) else 0)
      = (((if P e then x (f e) * w e else 0 : ℝ)) : EReal) := by
    intro e
    by_cases hP : P e
    · simp [hP]
    · simp [hP]
  simp only [zero_add, hite]
  simp only [← EReal.coe_mul, ← coe_sum, key]

end Cert.Sparse
-- ==== Proof.KernelBridge.lean ====
/-
  The dense form of the product is the sum over the edges. Entry (k, j) of the matrix is the sum of the weights of the edges
  whose index pair is (k, j); for an input index in [-2048, 2048) the wrapped index is one of the 2048 rows, so "first entry
  = k" is "the edge's column is k". Row b of x against column j of the matrix is then Σ_k x[b, k] · Σ_{e : col e = k, out e = j} w e,
  which over real entries distributes and regroups into Σ_{e : out e = j} x[b, col e] · w e.
-/
import proofs.«426413_j8418135900214_1_alg».proof.Proof.KernelDefs
import proofs.«426413_j8418135900214_1_alg».proof.Proof.Spec
import proofs.«426413_j8418135900214_1_alg».proof.Proof.ScatterIdx
import proofs.«426413_j8418135900214_1_alg».proof.Proof.SumLaw
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value

noncomputable section

namespace Cert.Sparse.Ker

open Idealize.ShloMosaic Idealize.ShloMosaic.ValueIdx
open Cert.KernelIdeal Cert.KernelIdeal.Gen Cert.Sparse

theorem col_at (v : IVec S209715 32) (e : Fin 209715) :
    broadcastInDim S209715x1 ![0] bcast_S209715_S209715x1_0 v (ix2 e (0 : Fin 1)) = v (ix1 e) :=
  broadcastInDim_apply _ bcast_S209715_S209715x1_0 v (ix2 e (0 : Fin 1)) (ix1 e) (fun a => match a with
    | ⟨0, _⟩ => by show e.val = if (209715 : Nat) = 1 then 0 else e.val; rw [if_neg (by decide)])

/-- The first entry of edge e's pair is its wrapped input index. -/
theorem pairs_in (iin iout : IVec S209715 32) (e : Fin 209715) :
    pairs iin iout (ix2 e (0 : Fin 2)) = wrap (iin (ix1 e)) := by
  unfold pairs
  rw [concatenate_pair_apply_left (1 : Fin S209715x2.rank) _ _ concatenates_S209715x1_S209715x1_S209715x2_d1
    (ix2 e (0 : Fin 2)) rfl (ix2 e (0 : Fin 1)) (fun b => match b with | ⟨0, _⟩ => rfl | ⟨1, _⟩ => rfl), col_at]
  rfl

/-- The second entry of edge e's pair is its wrapped output index. -/
theorem pairs_out (iin iout : IVec S209715 32) (e : Fin 209715) :
    pairs iin iout (ix2 e (1 : Fin 2)) = wrap (iout (ix1 e)) := by
  unfold pairs
  rw [concatenate_pair_apply_right (1 : Fin S209715x2.rank) _ _ concatenates_S209715x1_S209715x1_S209715x2_d1
    (ix2 e (1 : Fin 2)) rfl rfl (ix2 e (0 : Fin 1))
    (fun b hb => match b, hb with | ⟨0, _⟩, _ => rfl | ⟨1, _⟩, hb => absurd rfl hb) rfl, col_at]
  rfl

/-- Entry (k, j) of the dense matrix: the weights of the edges whose pair is (k, j). In range, an edge's first entry is k
    exactly when its column is k. -/
theorem Amat_at (w : FVec Ideal S209715 .f32) (wr : S209715.Idx → ℝ) (hwr : ∀ i, w i = (wr i : EReal))
    (iin iout : IVec S209715 32) (hin : ∀ i, -2048 ≤ (iin i).toInt ∧ (iin i).toInt < 2048) (k j : Fin 2048) :
    Amat w iin iout (ix2 k j)
      = 0 + ∑ e ∈ Finset.univ.filter (fun e : Fin 209715 =>
          colOf (iin (ix1 e)) = k ∧ (wrap (iout (ix1 e))).toInt = (j.val : Int)), ((wr (ix1 e) : ℝ) : EReal) := by
  unfold Amat Host.scatterAdd
  rw [Ideal.hostScatterAdd_def]
  unfold Ideal.hostScatterAdd
  have hzero : broadcastInDim S2048x2048 ![] bcast_S_S2048x2048 (constant (F := Ideal) S_ .f32 0x00000000#32) (ix2 k j)
      = (0 : EReal) := Ideal.ofBits_zero_f32
  rw [hzero]
  refine congrArg (fun s : EReal => (0 : EReal) + s) ?_
  rw [Finset.sum_filter, Finset.sum_filter, ← Equiv.sum_comp (idxEquiv1 (n := 209715)).symm]
  refine Finset.sum_congr rfl fun e _ => ?_
  show (if scatter_S2048x2048_S209715x2_S209715_n_01_01_1.resultIdx? (ix1 e) (pairs iin iout) = some (ix2 k j) then w (ix1 e) else 0)
    = if colOf (iin (ix1 e)) = k ∧ (wrap (iout (ix1 e))).toInt = (j.val : Int) then ((wr (ix1 e) : ℝ) : EReal) else 0
  rw [hwr]
  refine if_congr ?_ rfl rfl
  rw [resultIdx?_pairs scatter_S2048x2048_S209715x2_S209715_n_01_01_1 rfl rfl rfl rfl, pairs_in, pairs_out]
  obtain ⟨h0, h1⟩ := wrap_range _ (hin (ix1 e)).1 (hin (ix1 e)).2
  rw [← colOf_val _ h0 h1]
  constructor
  · rintro ⟨h, h'⟩; exact ⟨Fin.ext (by exact_mod_cast h), h'⟩
  · rintro ⟨h, h'⟩; exact ⟨by rw [h], h'⟩

/-- Over real entries and in-range input indices the dense product is the sum over the edges: distribute row b of x over
    each entry of the matrix and collect the edges by their column. -/
theorem dense_is_G (x : FVec Ideal S512x2048 .f32) (w : FVec Ideal S209715 .f32) (bias : FVec Ideal S2048 .f32)
    (iin iout : IVec S209715 32)
    (hx : ∀ i, ∃ r : ℝ, x i = (r : EReal)) (hw : ∀ i, ∃ r : ℝ, w i = (r : EReal))
    (hin : ∀ i, -2048 ≤ (iin i).toInt ∧ (iin i).toInt < 2048) :
    Dense x (Amat w iin iout) (shapeCast S1x2048 bias shapeCasts_S2048_S1x2048) = G x w bias iin iout := by
  choose xr hxr using hx
  choose wr hwr using hw
  funext i
  obtain ⟨b, j, rfl⟩ : ∃ (b : Fin 512) (j : Fin 2048), i = ix2 b j := ⟨i 0, i 1, eq_ix2 i⟩
  show (∑ k : Fin 2048, x (ix2 b k) * Amat w iin iout (ix2 k j))
      + shapeCast S1x2048 bias shapeCasts_S2048_S1x2048 (ix2 (0 : Fin 1) j)
    = (0 + edgeSum x w iin iout b j) + bias (ix1 j)
  have hbias : shapeCast S1x2048 bias shapeCasts_S2048_S1x2048 (ix2 (0 : Fin 1) j) = bias (ix1 j) :=
    shapeCast_apply bias _ (ix2 (0 : Fin 1) j) (ix1 j) (by
      rw [Shape.rowMajor_val_one, Shape.rowMajor_val_two]
      show j.val = (0 : Nat) * 2048 + j.val
      omega)
  rw [hbias, zero_add]
  refine congrArg (fun s : EReal => s + bias (ix1 j)) ?_
  rw [Finset.sum_congr rfl fun k _ => by rw [Amat_at w wr hwr iin iout hin k j, hxr]]
  rw [sum_mul_fiber (fun k => xr (ix2 b k)) (fun e => wr (ix1 e)) (fun e => colOf (iin (ix1 e)))
    (fun e => (wrap (iout (ix1 e))).toInt = (j.val : Int))]
  unfold edgeSum
  refine Finset.sum_congr rfl fun e _ => ?_
  rw [hxr, hwr]

end Cert.Sparse.Ker

end
-- ==== Proof.lean ====
/-
  A linear layer whose weight matrix is given by its nonzero entries: E = 209715 edges, edge e carrying an input column
  in(e), an output column out(e) and a weight w e, a negative index counted from the end of its axis. The reference gathers
  column in(e) of x for every edge, scales it by w e and scatter-adds the scaled columns into the output columns, then adds
  the bias row:
      out[b, j] = Σ_{e : out(e) = j} x[b, in(e)] · w e + bias[j].
  The kernel first scatter-adds the weights into a dense 2048 × 2048 matrix A[i, j] = Σ_{e : in(e) = i, out(e) = j} w e on the
  host and then multiplies, a 512-column block of A per grid point: out = x · A + bias.
  Over the extended reals the two agree where every entry of x and w is a real number and every input index lies in
  [-2048, 2048): then each edge has exactly one row of A, and distributing x[b, i] over the sum that is A[i, j] and collecting
  the edges by their row gives the reference's sum. (An input index outside that range is clamped by the reference's gather
  and dropped by the kernel's scatter, which is why the domain condition carries it; an output index outside its range is
  dropped by both.) The narrowing of the operands to bf16 is the identity over the extended reals, so the idealized kernel is
  the printed one and nothing is owed for it.
  The frames of the two kernel programs and the kernel's run block by block are the generated modules'; so is the
  reference's run, one host operation at a time.
-/
import proofs.«426413_j8418135900214_1_alg».proof.Defs
import proofs.«426413_j8418135900214_1_alg».proof.Proof.Gen.Kernel
import proofs.«426413_j8418135900214_1_alg».proof.Proof.Gen.Kernel.Skeleton
import proofs.«426413_j8418135900214_1_alg».proof.Proof.Gen.Kernel.Launch
import proofs.«426413_j8418135900214_1_alg».proof.Proof.Gen.Kernel.Points
import proofs.«426413_j8418135900214_1_alg».proof.Proof.Gen.Kernel.Frame
import proofs.«426413_j8418135900214_1_alg».proof.Proof.Gen.KernelIdeal
import proofs.«426413_j8418135900214_1_alg».proof.Proof.Gen.KernelIdeal.Skeleton
import proofs.«426413_j8418135900214_1_alg».proof.Proof.Gen.KernelIdeal.Launch
import proofs.«426413_j8418135900214_1_alg».proof.Proof.Gen.KernelIdeal.Points
import proofs.«426413_j8418135900214_1_alg».proof.Proof.Gen.KernelIdeal.Frame
import proofs.«426413_j8418135900214_1_alg».proof.Proof.Gen.ReferenceIdeal
import proofs.«426413_j8418135900214_1_alg».proof.Proof.Gen.Pre_finite_inputs
import proofs.«426413_j8418135900214_1_alg».proof.Proof.Gen.KernelIdeal.Value
import proofs.«426413_j8418135900214_1_alg».proof.Proof.Gen.ReferenceIdeal.Run
import proofs.«426413_j8418135900214_1_alg».proof.Proof.Gen.ReferenceIdeal.Read
import proofs.«426413_j8418135900214_1_alg».proof.Proof.PreFacts
import proofs.«426413_j8418135900214_1_alg».proof.Proof.RefValue
import proofs.«426413_j8418135900214_1_alg».proof.Proof.KernelBlocks
import proofs.«426413_j8418135900214_1_alg».proof.Proof.KernelHost
import proofs.«426413_j8418135900214_1_alg».proof.Proof.KernelBridge
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to its idealization. -/
theorem preserves : Cert.preserves_Kernel_KernelIdeal := trivial

/-- Both runs end with the result array at G of the argument arrays: the kernel's by the dense form of its blocks and the
    law that joins it to the sum over the edges (under the domain condition), the reference's by reading its operations. -/
theorem algebraic : Cert.algebraic_KernelIdeal_ReferenceIdeal := by
  intro m ρ m' ρ' hpre hagree
  refine ⟨fun c => Cert.Sparse.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Value.run_blocks (F := Ideal) m ρ)
    obtain ⟨hx, hw, hin⟩ := Cert.Sparse.dom_of_pre _ _ _ _ _ (hpre c)
    rw [Cert.Sparse.Ker.final m c, Cert.Sparse.Ker.A_host m c, Cert.Sparse.Ker.B_host m c,
      Cert.KernelIdeal.Gen.V_main_arg0 m c]
    exact Cert.Sparse.Ker.dense_is_G _ _ _ _ _ hx hw hin
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, Cert.Sparse.Ref.ref_is_G, (hagree c).1, (hagree c).2.1,
      (hagree c).2.2.1, (hagree c).2.2.2.1, (hagree c).2.2.2.2]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
